-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x65536 : Shape := ⟨2, ![512, 65536]⟩
abbrev S65536 : Shape := ⟨1, ![65536]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x65536 : S_.BroadcastsInDim S512x65536 (![] : Fin 0 → Fin S512x65536.rank)
  reducesTo_S512x65536_S_d0_1 : S512x65536.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg4 : FVec F S65536 .f32) (main_arg5 : FVec F S65536 .f32) (main_v13 : IVec S_ 1) (main_v16 : IVec S512x65536 1) : IVec S_ 1 :=
  let main_c_5 : IVec S_ 1 := constantI S_ 1 1#1
  let main_v17 : IVec S_ 1 := (fun x v => Host.reduce IntOp.andi x v reducesTo_S512x65536_S_d0_1 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_v24 : FVec F S65536 .f32 := Host.absf main_arg5
  let main_cst_8 : FVec F S_ .f32 := constant S_ .f32 0x7F800000#32
  let main_v25 : FVec F S65536 .f32 := broadcastInDim S65536 ![] bcast_S_S65536 main_cst_8
  let main_v26 : IVec S65536 1 := cmpf .olt main_v24 main_v25
  let main_c_9 : IVec S_ 1 := constantI S_ 1 1#1
  let main_v27 : IVec S_ 1 := (fun x v => Host.reduce IntOp.andi x v reducesTo_S65536_S_d0 h_S_) main_v26 main_c_9
  let main_v28 : IVec S_ 1 := andi main_v23 main_v27
  main_v28

def fn {F : FTy → Type} [FloatOps F] (main_arg0 : FVec F S512x256 .f32) (main_arg1 : FVec F S512x65536 .f32) (main_arg2 : FVec F S512x65536 .f32) (main_arg3 : FVec F S512x65536 .f32) (main_arg4 : FVec F S65536 .f32) (main_arg5 : FVec F S65536 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  let main_v9 : FVec F S512x65536 .f32 := Host.absf main_arg2
  let main_cst_2 : FVec F S_ .f32 := constant S_ .f32 0x7F800000#32
  let main_v10 : FVec F S512x65536 .f32 := broadcastInDim S512x65536 ![] bcast_S_S512x65536 main_cst_2
  let main_v11 : IVec S512x65536 1 := cmpf .olt main_v9 main_v10
  let main_c_3 : IVec S_ 1 := constantI S_ 1 1#1
  let main_v12 : IVec S_ 1 := (fun x v => Host.reduce IntOp.andi x v reducesTo_S512x65536_S_d0_1 h_S_) main_v11 main_c_3
  let main_v13 : IVec S_ 1 := andi main_v8 main_v12
  let main_v14 : FVec F S512x65536 .f32 := Host.absf main_arg3
  let main_cst_4 : FVec F S_ .f32 := constant S_ .f32 0x7F800000#32
  let main_v15 : FVec F S512x65536 .f32 := broadcastInDim S512x65536 ![] bcast_S_S512x65536 main_cst_4
  let main_v16 : IVec S512x65536 1 := cmpf .olt main_v14 main_v15
  fn_part1 (F := F) main_arg4 main_arg5 main_v13 main_v16
-- ==== Kernel.lean ====
abbrev S512x256 : Shape := ⟨2, ![512, 256]⟩
abbrev S512x65536 : Shape := ⟨2, ![512, 65536]⟩
abbrev S65536 : Shape := ⟨1, ![65536]⟩
abbrev S1x65536 : Shape := ⟨2, ![1, 65536]⟩
abbrev S8x256 : Shape := ⟨2, ![8, 256]⟩
abbrev S8x65536 : Shape := ⟨2, ![8, 65536]⟩
abbrev S8x256x1 : Shape := ⟨3, ![8, 256, 1]⟩
abbrev S8x1x256 : Shape := ⟨3, ![8, 1, 256]⟩
abbrev S8x256x256 : Shape := ⟨3, ![8, 256, 256]⟩
abbrev S8 : Shape := ⟨1, ![8]⟩
abbrev S8x1 : Shape := ⟨2, ![8, 1]⟩

abbrev nBuf : Space → Nat
  | .hbm => 11
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x65536, .f32⟩
  | .hbm, ⟨2, _⟩ => ⟨S512x65536, .f32⟩
  | .hbm, ⟨3, _⟩ => ⟨S512x65536, .f32⟩
  | .hbm, ⟨4, _⟩ => ⟨S65536, .f32⟩
  | .hbm, ⟨5, _⟩ => ⟨S65536, .f32⟩
  | .hbm, ⟨6, _⟩ => ⟨S1x65536, .f32⟩
  | .hbm, ⟨7, _⟩ => ⟨S1x65536, .f32⟩
  | .hbm, ⟨8, _⟩ => ⟨S512x65536, .f32⟩
  | .hbm, ⟨9, _⟩ => ⟨S512x65536, .f32⟩
  | .hbm, ⟨10, _⟩ => ⟨S512x65536, .f32⟩
  | .local _ .vmem, ⟨0, _⟩ => ⟨S8x256, .f32⟩
  | .local _ .vmem, ⟨1, _⟩ => ⟨S8x256, .f32⟩
  | .local _ .vmem, ⟨2, _⟩ => ⟨S8x65536, .f32⟩
  | .local _ .vmem, ⟨3, _⟩ => ⟨S8x65536, .f32⟩
  | .local _ .vmem, ⟨4, _⟩ => ⟨S8x65536, .f32⟩
  | .local _ .vmem, ⟨5, _⟩ => ⟨S8x65536, .f32⟩
  | .local _ .vmem, ⟨6, _⟩ => ⟨S8x65536, .f32⟩
  | .local _ .vmem, ⟨7, _⟩ => ⟨S8x65536, .f32⟩
  | .local _ .vmem, ⟨8, _⟩ => ⟨S1x65536, .f32⟩
  | .local _ .vmem, ⟨9, _⟩ => ⟨S1x65536, .f32⟩
  | .local _ .vmem, ⟨10, _⟩ => ⟨S8x65536, .f32⟩
  | .local _ .vmem, ⟨11, _⟩ => ⟨S8x65536, .f32⟩
  | .local _ .vmem, ⟨12, _⟩ => ⟨S8x65536, .f32⟩
  | .local _ .vmem, ⟨13, _⟩ => ⟨S8x65536, .f32⟩
  | .local _ .vmem, ⟨14, _⟩ => ⟨S8x65536, .f32⟩
  | .local _ .vmem, ⟨15, _⟩ => ⟨S8x65536, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x65536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x65536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x65536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x65536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x65536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S65536_S1x65536 : S65536.ShapeCasts S1x65536
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  shapeCasts_S8x256x256_S8x65536 : S8x256x256.ShapeCasts S8x65536
  inb_S8x65536_S8x65536_0_0 : ∀ a, (![0, 0] : Fin 2 → Nat) a + S8x65536.size a ≤ S8x65536.size a
  h_S8x65536 : 0 < S8x65536.numel
  reduces_S8x65536_S8 : S8x65536.Reduces [1] S8
  shapeCasts_S8_S8x1 : S8.ShapeCasts S8x1
  broadcasts_S8x1_S8x65536 : S8x1.Broadcasts S8x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  broadcasts_S1x65536_S8x65536 : S1x65536.Broadcasts S8x65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S512x256.size a
  hwx0_0 : ∀ i : grid0.Coords, EltTy.bits .f32 = 32 ∨ (Rect.block (s := S512x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x65536.size a ≤ S512x65536.size a
  hwx0_1 : ∀ i : grid0.Coords, EltTy.bits .f32 = 32 ∨ (Rect.block (s := S512x65536) S8x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x65536.size a ≤ S512x65536.size a
  hwx0_2 : ∀ i : grid0.Coords, EltTy.bits .f32 = 32 ∨ (Rect.block (s := S512x65536) S8x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x65536.size a ≤ S512x65536.size a
  hwx0_3 : ∀ i : grid0.Coords, EltTy.bits .f32 = 32 ∨ (Rect.block (s := S512x65536) S8x65536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x65536.size a ≤ S1x65536.size a
  hwx0_4 : ∀ i : grid0.Coords, EltTy.bits .f32 = 32 ∨ (Rect.block (s := S1x65536) S1x65536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x65536.size a ≤ S1x65536.size a
  hwx0_5 : ∀ i : grid0.Coords, EltTy.bits .f32 = 32 ∨ (Rect.block (s := S1x65536) S1x65536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x65536.size a ≤ S512x65536.size a
  hwx0_6 : ∀ i : grid0.Coords, EltTy.bits .f32 = 32 ∨ (Rect.block (s := S512x65536) S8x65536.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x65536.size a ≤ S512x65536.size a
  hwx0_7 : ∀ i : grid0.Coords, EltTy.bits .f32 = 32 ∨ (Rect.block (s := S512x65536) S8x65536.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x65536.size a ≤ S512x65536.size a
  hwx0_8 : ∀ i : grid0.Coords, EltTy.bits .f32 = 32 ∨ (Rect.block (s := S512x65536) S8x65536.size (cc0_transform_8 i) (hinb0_8 i)).WholeWords (EltTy.packing .f32)

variable [Facts₀]

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x65536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x65536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x65536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S8x65536.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S8x65536.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S8x65536.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x256 : Shape := ⟨2, ![512, 256]⟩
abbrev S512x65536 : Shape := ⟨2, ![512, 65536]⟩
abbrev S65536 : Shape := ⟨1, ![65536]⟩
abbrev S512x256x1 : Shape := ⟨3, ![512, 256, 1]⟩
abbrev S512x1x256 : Shape := ⟨3, ![512, 1, 256]⟩
abbrev S512x256x256 : Shape := ⟨3, ![512, 256, 256]⟩
abbrev S_ : Shape := ⟨0, ![]⟩
abbrev S512 : Shape := ⟨1, ![512]⟩
abbrev S512x1 : Shape := ⟨2, ![512, 1]⟩
abbrev S1x65536 : Shape := ⟨2, ![1, 65536]⟩

abbrev nBuf : Space → Nat
  | .hbm => 50
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x65536, .f32⟩
  | .hbm, ⟨2, _⟩ => ⟨S512x65536, .f32⟩
  | .hbm, ⟨3, _⟩ => ⟨S512x65536, .f32⟩
  | .hbm, ⟨4, _⟩ => ⟨S65536, .f32⟩
  | .hbm, ⟨5, _⟩ => ⟨S65536, .f32⟩
  | .hbm, ⟨6, _⟩ => ⟨S512x256x1, .f32⟩
  | .hbm, ⟨7, _⟩ => ⟨S512x1x256, .f32⟩
  | .hbm, ⟨8, _⟩ => ⟨S512x256x256, .f32⟩
  | .hbm, ⟨9, _⟩ => ⟨S512x256x256, .f32⟩
  | .hbm, ⟨10, _⟩ => ⟨S512x256x256, .f32⟩
  | .hbm, ⟨11, _⟩ => ⟨S512x65536, .f32⟩
  | .hbm, ⟨12, _⟩ => ⟨S512x65536, .f32⟩
  | .hbm, ⟨13, _⟩ => ⟨S512x65536, .f32⟩
  | .hbm, ⟨14, _⟩ => ⟨S512x65536, .f32⟩
  | .hbm, ⟨15, _⟩ => ⟨S512x65536, .f32⟩
  | .hbm, ⟨16, _⟩ => ⟨S_, .f32⟩
  | .hbm, ⟨17, _⟩ => ⟨S512x65536, .f32⟩
  | .hbm, ⟨18, _⟩ => ⟨S512x65536, .f32⟩
  | .hbm, ⟨19, _⟩ => ⟨S512x65536, .f32⟩
  | .hbm, ⟨20, _⟩ => ⟨S512x65536, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x65536, .f32⟩
  | .hbm, ⟨28, _⟩ => ⟨S512x65536, .f32⟩
  | .hbm, ⟨29, _⟩ => ⟨S512x65536, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S512x65536, .f32⟩
  | .hbm, ⟨37, _⟩ => ⟨S512x65536, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x65536, .f32⟩
  | .hbm, ⟨43, _⟩ => ⟨S512x65536, .f32⟩
  | .hbm, ⟨44, _⟩ => ⟨S1x65536, .f32⟩
  | .hbm, ⟨45, _⟩ => ⟨S512x65536, .f32⟩
  | .hbm, ⟨46, _⟩ => ⟨S512x65536, .f32⟩
  | .hbm, ⟨47, _⟩ => ⟨S1x65536, .f32⟩
  | .hbm, ⟨48, _⟩ => ⟨S512x65536, .f32⟩
  | .hbm, ⟨49, _⟩ => ⟨S512x65536, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S512x256_S512x256x1_0_1 : S512x256.BroadcastsInDim S512x256x1 (![0, 1] : Fin 2 → Fin S512x256x1.rank)
  bcast_S512x256_S512x1x256_0_2 : S512x256.BroadcastsInDim S512x1x256 (![0, 2] : Fin 2 → Fin S512x1x256.rank)
  bcast_S512x256x1_S512x256x256_0_1_2 : S512x256x1.BroadcastsInDim S512x256x256 (![0, 1, 2] : Fin 3 → Fin S512x256x256.rank)
  bcast_S512x1x256_S512x256x256_0_1_2 : S512x1x256.BroadcastsInDim S512x256x256 (![0, 1, 2] : Fin 3 → Fin S512x256x256.rank)
  shapeCasts_S512x256x256_S512x65536 : S512x256x256.ShapeCasts S512x65536
  bcast_S_S512x65536 : S_.BroadcastsInDim S512x65536 (![] : Fin 0 → Fin S512x65536.rank)
  reducesTo_S512x65536_S512_d1 : S512x65536.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x65536_0_1 : S512x1.BroadcastsInDim S512x65536 (![0, 1] : Fin 2 → Fin S512x65536.rank)
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)

variable [Facts₀]

class Facts : Prop extends Facts₀ where

variable [Facts]
-- ==== Proof.SyncSpec.lean ====
/-
  What both programs compute, one batch row at a time, on the extended reals.

  A batch row carries a state vector `s` of 256 entries and three rows `a`, `b`, `w` of 65536 entries (the running
  numerator, the running denominator and the decay weights), and two parameter rows `g`, `h` shared by all batch rows.
  Position `q` of a 65536-row is the pair (q / 256, q % 256) of a 256 × 256 square in row-major order. The update is

      alpha q = w q · w q · a q + s (q / 256) · s (q % 256)          (the outer product of the state with itself)
      beta  q = w q · w q · b q + 1
      pre   q = alpha q · rsqrt (beta q)

  and the third result is `pre` normalised along the row: with `mean f = (Σ_k f k) / 65536`,

      out q = (pre q − mean pre) · rsqrt (mean ((pre − mean pre)²) + ε) · g q + h q.

  The literals are kept as the exact values of their binary words (the same words occur in both programs), the quotient
  by the row length is the extended reals' division and `rsqrt` their reciprocal square root, so nothing here depends on
  the entries being finite: the two programs are the same expression, and no algebraic law is needed to join them.
-/
import Idealize.ShloMosaic.PureOps.Ideal
import Idealize.ShloMosaic.Lib.ValueIdx

noncomputable section

namespace Cert.SyncSpec

open Idealize.ShloMosaic Idealize.ShloMosaic.ValueIdx

/-- The literal one. -/
abbrev one : EReal := Ideal.ofBits .f32 0x3F800000#32
/-- The row length 65536, as the float literal both programs divide by. -/
abbrev len : EReal := Ideal.ofBits .f32 0x47800000#32
/-- The offset added to the variance before the reciprocal square root. -/
abbrev eps : EReal := Ideal.ofBits .f32 0x3727C5AC#32

/-- The row of the 256 × 256 square that flat position `q` lies in. -/
def hi (q : Fin 65536) : Fin 256 := ⟨q.val / 256, by have := q.isLt; omega⟩
/-- The column of the 256 × 256 square that flat position `q` lies in. -/
def lo (q : Fin 65536) : Fin 256 := ⟨q.val % 256, Nat.mod_lt _ (by decide)⟩

/-- The outer product of the state vector with itself, flattened row-major. -/
def outer (s : Fin 256 → EReal) (q : Fin 65536) : EReal := s (hi q) * s (lo q)

/-- The updated numerator. -/
def alphaRow (s : Fin 256 → EReal) (a w : Fin 65536 → EReal) (q : Fin 65536) : EReal :=
  w q * w q * a q + outer s q

/-- The updated denominator. -/
def betaRow (b w : Fin 65536 → EReal) (q : Fin 65536) : EReal := w q * w q * b q + one

/-- Numerator over the square root of the denominator: the row that is normalised. -/
def preRow (s : Fin 256 → EReal) (a b w : Fin 65536 → EReal) (q : Fin 65536) : EReal :=
  alphaRow s a w q * Ideal.rsqrt (betaRow b w q)

/-- The mean of a row: its sum divided by the row length. -/
def mean (f : Fin 65536 → EReal) : EReal := Ideal.div (∑ k : Fin 65536, f k) len

/-- A row minus its mean. -/
def centred (f : Fin 65536 → EReal) (q : Fin 65536) : EReal := f q - mean f

/-- The mean of the squares of the centred row. -/
def variance (f : Fin 65536 → EReal) : EReal := mean fun k => centred f k * centred f k

/-- The row normalised to zero mean and unit variance, then scaled by `g` and shifted by `h`. -/
def normRow (f g h : Fin 65536 → EReal) (q : Fin 65536) : EReal :=
  centred f q * Ideal.rsqrt (variance f + eps) * g q + h q

/-! ## The three results as whole arrays -/

/-- Row `r` of a two-axis array as a function of the position in the row. -/
def row {n0 n1 : ℕ} (X : (⟨2, ![n0, n1]⟩ : Shape).Idx → EReal) (r : Fin n0) : Fin n1 → EReal := fun k => X (ix2 r k)

/-- A one-axis array as a function of the position. -/
def line {n : ℕ} (X : (⟨1, ![n]⟩ : Shape).Idx → EReal) : Fin n → EReal := fun k => X (ix1 k)

variable (S : (⟨2, ![512, 256]⟩ : Shape).Idx → EReal) (A B W : (⟨2, ![512, 65536]⟩ : Shape).Idx → EReal)
  (Γ Η : (⟨1, ![65536]⟩ : Shape).Idx → EReal)

/-- The updated numerator array: row `r` depends on row `r` of the state, of the numerator and of the weights. -/
def alphaOut : (⟨2, ![512, 65536]⟩ : Shape).Idx → EReal := fun i =>
  alphaRow (row S (i 0)) (row A (i 0)) (row W (i 0)) (i 1)

/-- The updated denominator array. -/
def betaOut : (⟨2, ![512, 65536]⟩ : Shape).Idx → EReal := fun i =>
  betaRow (row B (i 0)) (row W (i 0)) (i 1)

/-- The normalised array: row `r` depends on row `r` of the four batch arrays and on the two parameter rows. -/
def syncOut : (⟨2, ![512, 65536]⟩ : Shape).Idx → EReal := fun i =>
  normRow (preRow (row S (i 0)) (row A (i 0)) (row B (i 0)) (row W (i 0))) (line Γ) (line Η) (i 1)

theorem alphaOut_ix2 (r : Fin 512) (q : Fin 65536) :
    alphaOut S A W (ix2 r q) = alphaRow (row S r) (row A r) (row W r) q := rfl

theorem betaOut_ix2 (r : Fin 512) (q : Fin 65536) :
    betaOut B W (ix2 r q) = betaRow (row B r) (row W r) q := rfl

theorem syncOut_ix2 (r : Fin 512) (q : Fin 65536) :
    syncOut S A B W Γ Η (ix2 r q) = normRow (preRow (row S r) (row A r) (row B r) (row W r)) (line Γ) (line Η) q := rfl

end Cert.SyncSpec

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.KernelRows.lean ====
/-
  What the kernel's body stores, read at a position (p, q) of an 8 × 65536 block: each of its three stored values is the
  specification's row function of ROW p of the loaded blocks.

  The body's values are built from pointwise operations, from the outer product of the state block with itself
  (two unit-axis casts, two broadcasts, a product, and a row-major flattening of the 256 × 256 square), from two sums
  along the row kept as 8 × 1 columns, and from the two parameter rows broadcast over the 8 batch rows. A column
  broadcast back over the row reads, at (p, q), the column's entry p; a sum along the row read at p is the finite sum of
  row p; a parameter row broadcast reads its entry q. So every value at (p, q) depends on row p only.
-/
import proofs.«113156_j50337016709331_1_alg».proof.Proof.Gen.KernelIdeal.Value
import proofs.«113156_j50337016709331_1_alg».proof.Proof.SyncSpec
import proofs.«113156_j50337016709331_1_alg».proof.Proof.LibColumn

noncomputable section

namespace Cert.KernelIdeal.Rows

open Cert.KernelIdeal Cert.KernelIdeal.Gen Idealize.ShloMosaic Idealize.ShloMosaic.ValueIdx Cert.SyncSpec Cert.Lib.Column

/-! ## The mean column, the centred block and the scale column, for any block -/

/-- The row sums divided by the row length, kept as a column and broadcast back: at (p, q) the mean of row p. -/
theorem meanColumn_apply (X : FVec Ideal S8x65536 .f32) (hr : S8x65536.Reduces [1] S8) (hc : S8.ShapeCasts S8x1)
    (hb : S8x1.Broadcasts S8x65536) (p : Fin 8) (q : Fin 65536) :
    broadcastTo S8x65536 (divf (shapeCast S8x1 (multiReduction .add [1] S8 X 0x00000000#32 hr (.inl rfl) rfl) hc)
      (broadcast S8x1 (Scalar.ofBits .f32 0x47800000#32 : Ideal .f32))) hb (ix2 p q) = mean (row X p) := by
  refine (broadcastTo_a1_ab_apply _ hb p q).trans ?_
  show Ideal.div (shapeCast S8x1 (multiReduction .add [1] S8 X 0x00000000#32 hr (.inl rfl) rfl) hc (ix2 p (0 : Fin 1))) len = _
  refine congrArg (Ideal.div · len) ?_
  exact (shapeCast_a_a1_apply _ hc p 0).trans (rowSum_apply X 0x00000000#32 hr (.inl rfl) rfl p)

/-- The block minus its mean column: at (p, q) row p centred. -/
theorem centredBlock_apply (X : FVec Ideal S8x65536 .f32) (hr : S8x65536.Reduces [1] S8) (hc : S8.ShapeCasts S8x1)
    (hb : S8x1.Broadcasts S8x65536) (p : Fin 8) (q : Fin 65536) :
    subf X (broadcastTo S8x65536 (divf (shapeCast S8x1 (multiReduction .add [1] S8 X 0x00000000#32 hr (.inl rfl) rfl) hc)
      (broadcast S8x1 (Scalar.ofBits .f32 0x47800000#32 : Ideal .f32))) hb) (ix2 p q) = centred (row X p) q :=
  congrArg (X (ix2 p q) - ·) (meanColumn_apply X hr hc hb p q)

/-- The reciprocal square root of the mean of the squares plus the offset, kept as a column and broadcast back. -/
theorem scaleColumn_apply (C : FVec Ideal S8x65536 .f32) (hr : S8x65536.Reduces [1] S8) (hc : S8.ShapeCasts S8x1)
    (hb : S8x1.Broadcasts S8x65536) (p : Fin 8) (q : Fin 65536) :
    broadcastTo S8x65536 (rsqrt (addf (divf (shapeCast S8x1 (multiReduction .add [1] S8 (mulf C C) 0x00000000#32 hr (.inl rfl) rfl) hc)
      (broadcast S8x1 (Scalar.ofBits .f32 0x47800000#32 : Ideal .f32))) (broadcast S8x1 (Scalar.ofBits .f32 0x3727C5AC#32 : Ideal .f32)))) hb (ix2 p q)
      = Ideal.rsqrt (mean (fun k => C (ix2 p k) * C (ix2 p k)) + eps) := by
  refine (broadcastTo_a1_ab_apply _ hb p q).trans ?_
  show Ideal.rsqrt (Ideal.div (shapeCast S8x1 (multiReduction .add [1] S8 (mulf C C) 0x00000000#32 hr (.inl rfl) rfl) hc (ix2 p (0 : Fin 1))) len + eps) = _
  refine congrArg (fun z => Ideal.rsqrt (Ideal.div z len + eps)) ?_
  exact (shapeCast_a_a1_apply _ hc p 0).trans (rowSum_apply (mulf C C) 0x00000000#32 hr (.inl rfl) rfl p)

/-- A parameter row, cast to its own shape and broadcast over the 8 batch rows: at (p, q) its entry q. -/
theorem paramRow_apply (v : Vec Ideal S1x65536 .f32) (hs : S1x65536.ShapeCasts S1x65536) (hb : S1x65536.Broadcasts S8x65536)
    (p : Fin 8) (q : Fin 65536) :
    broadcastTo S8x65536 (shapeCast S1x65536 v hs) hb (ix2 p q) = v (ix2 (0 : Fin 1) q) := by
  rw [shapeCast_self]
  exact broadcastTo_1b_ab_apply v hb p q

/-- The centred block times its scale column: at (p, q) row p normalised to zero mean and unit variance. -/
theorem normBlock_apply (X : FVec Ideal S8x65536 .f32) (hr : S8x65536.Reduces [1] S8) (hc : S8.ShapeCasts S8x1)
    (hb : S8x1.Broadcasts S8x65536) (p : Fin 8) (q : Fin 65536) :
    mulf (subf X (broadcastTo S8x65536 (divf (shapeCast S8x1 (multiReduction .add [1] S8 X 0x00000000#32 hr (.inl rfl) rfl) hc)
        (broadcast S8x1 (Scalar.ofBits .f32 0x47800000#32 : Ideal .f32))) hb))
      (broadcastTo S8x65536 (rsqrt (addf (divf (shapeCast S8x1 (multiReduction .add [1] S8
          (mulf (subf X (broadcastTo S8x65536 (divf (shapeCast S8x1 (multiReduction .add [1] S8 X 0x00000000#32 hr (.inl rfl) rfl) hc)
            (broadcast S8x1 (Scalar.ofBits .f32 0x47800000#32 : Ideal .f32))) hb))
          (subf X (broadcastTo S8x65536 (divf (shapeCast S8x1 (multiReduction .add [1] S8 X 0x00000000#32 hr (.inl rfl) rfl) hc)
            (broadcast S8x1 (Scalar.ofBits .f32 0x47800000#32 : Ideal .f32))) hb))) 0x00000000#32 hr (.inl rfl) rfl) hc)
        (broadcast S8x1 (Scalar.ofBits .f32 0x47800000#32 : Ideal .f32))) (broadcast S8x1 (Scalar.ofBits .f32 0x3727C5AC#32 : Ideal .f32)))) hb)
      (ix2 p q)
      = centred (row X p) q * Ideal.rsqrt (variance (row X p) + eps) := by
  generalize hC : subf X (broadcastTo S8x65536 (divf (shapeCast S8x1 (multiReduction .add [1] S8 X 0x00000000#32 hr (.inl rfl) rfl) hc)
        (broadcast S8x1 (Scalar.ofBits .f32 0x47800000#32 : Ideal .f32))) hb) = C
  have hCk : ∀ k : Fin 65536, C (ix2 p k) = centred (row X p) k := fun k => by
    rw [← hC]; exact centredBlock_apply X hr hc hb p k
  show C (ix2 p q) * _ = _
  rw [scaleColumn_apply C hr hc hb p q, hCk q]
  refine congrArg (fun f => centred (row X p) q * Ideal.rsqrt (mean f + eps)) ?_
  exact funext fun k => by rw [hCk k]

/-! ## The body's three stored values at (p, q) -/

/-- The position (p, q) of a block read through the whole-block rectangle is (p, q). -/
theorem wholeIdx (p : Fin 8) (q : Fin 65536) : r0_1.idx (ix2 p q) = (ix2 p q : S8x65536.Idx) := by
  funext a; apply Fin.ext
  match a with
  | ⟨0, _⟩ => show 0 + 1 * p.val = p.val; omega
  | ⟨1, _⟩ => show 0 + 1 * q.val = q.val; omega

/-- The updated numerator: the squared weight times the numerator, plus the outer product of the state row. -/
theorem pay3_apply (v0 : Vec Ideal S8x256 .f32) (v7 v9 : Vec Ideal S8x65536 .f32) (p : Fin 8) (q : Fin 65536) :
    k0_pay3 v0 v7 v9 (ix2 p q) = alphaRow (row v0 p) (row v9 p) (row v7 p) q := by
  refine (Cert.KernelIdeal.Value.piece7_0 v7 v9 v0 (ix2 p q)).trans ?_
  rw [wholeIdx]
  have e0 : Cert.KernelIdeal.Value.ix7_0 (ix2 p q) = ix2 p q := funext fun a => Fin.ext (by match a with | ⟨0, _⟩ => rfl | ⟨1, _⟩ => rfl)
  have e1 : Cert.KernelIdeal.Value.ix7_1 (ix2 p q) = ix2 p q := funext fun a => Fin.ext (by match a with | ⟨0, _⟩ => rfl | ⟨1, _⟩ => rfl)
  have e2 : Cert.KernelIdeal.Value.ix7_2 (ix2 p q) = ix2 p q := funext fun a => Fin.ext (by match a with | ⟨0, _⟩ => rfl | ⟨1, _⟩ => rfl)
  have e3 : Cert.KernelIdeal.Value.ix7_3 (ix2 p q) = ix2 p (hi q) := funext fun a => Fin.ext (by match a with | ⟨0, _⟩ => rfl | ⟨1, _⟩ => rfl)
  have e4 : Cert.KernelIdeal.Value.ix7_4 (ix2 p q) = ix2 p (lo q) := funext fun a => Fin.ext (by match a with | ⟨0, _⟩ => rfl | ⟨1, _⟩ => rfl)
  show v7 (Cert.KernelIdeal.Value.ix7_0 (ix2 p q)) * v7 (Cert.KernelIdeal.Value.ix7_1 (ix2 p q)) * v9 (Cert.KernelIdeal.Value.ix7_2 (ix2 p q))
      + v0 (Cert.KernelIdeal.Value.ix7_3 (ix2 p q)) * v0 (Cert.KernelIdeal.Value.ix7_4 (ix2 p q)) = _
  rw [e0, e1, e2, e3, e4]
  rfl

/-- The updated denominator: the squared weight times the denominator, plus one. -/
theorem pay4_apply (v7 v12 : Vec Ideal S8x65536 .f32) (p : Fin 8) (q : Fin 65536) :
    k0_pay4 v7 v12 (ix2 p q) = betaRow (row v12 p) (row v7 p) q := rfl

/-- The normalised row times the scale parameter. -/
theorem pay5_apply (v0 : Vec Ideal S8x256 .f32) (v7 v9 v12 : Vec Ideal S8x65536 .f32) (v34 : Vec Ideal S1x65536 .f32)
    (p : Fin 8) (q : Fin 65536) :
    k0_pay5 v0 v7 v9 v12 v34 (ix2 p q)
      = centred (preRow (row v0 p) (row v9 p) (row v12 p) (row v7 p)) q
          * Ideal.rsqrt (variance (preRow (row v0 p) (row v9 p) (row v12 p) (row v7 p)) + eps) * v34 (ix2 (0 : Fin 1) q) := by
  have hP : ∀ k : Fin 65536, (mulf (k0_pay3 v0 v7 v9) (rsqrt (k0_pay4 v7 v12))) (ix2 p k)
      = preRow (row v0 p) (row v9 p) (row v12 p) (row v7 p) k := fun k => by
    show k0_pay3 v0 v7 v9 (ix2 p k) * Ideal.rsqrt (k0_pay4 v7 v12 (ix2 p k)) = _
    rw [pay3_apply, pay4_apply]
    rfl
  unfold k0_pay5
  dsimp only
  generalize mulf (k0_pay3 v0 v7 v9) (rsqrt (k0_pay4 v7 v12)) = X at hP ⊢
  have hrow : row X p = preRow (row v0 p) (row v9 p) (row v12 p) (row v7 p) := funext hP
  rw [← hrow]
  refine congrArg₂ (· * ·) (normBlock_apply X _ _ _ p q) (paramRow_apply v34 _ _ p q)

/-- The shift parameter broadcast over the batch rows. -/
theorem pay6_apply (v38 : Vec Ideal S1x65536 .f32) (p : Fin 8) (q : Fin 65536) :
    k0_pay6 v38 (ix2 p q) = v38 (ix2 (0 : Fin 1) q) := by
  unfold k0_pay6
  exact paramRow_apply v38 _ _ p q

/-- The third stored value: the normalised row scaled and shifted by the two parameter rows. -/
theorem pay1_apply (v0 : Vec Ideal S8x256 .f32) (v7 v9 v12 : Vec Ideal S8x65536 .f32) (v34 v38 : Vec Ideal S1x65536 .f32)
    (p : Fin 8) (q : Fin 65536) :
    k0_pay1 (k0_pay5 v0 v7 v9 v12 v34) (k0_pay6 v38) (ix2 p q)
      = normRow (preRow (row v0 p) (row v9 p) (row v12 p) (row v7 p)) (fun k => v34 (ix2 (0 : Fin 1) k)) (fun k => v38 (ix2 (0 : Fin 1) k)) q := by
  show k0_pay5 v0 v7 v9 v12 v34 (ix2 p q) + k0_pay6 v38 (ix2 p q) = _
  rw [pay5_apply, pay6_apply]
  rfl

end Cert.KernelIdeal.Rows

end
-- ==== Proof.KernelValue.lean ====
/-
  The kernel's three result arrays after the run, as whole-array functions of the argument arrays.

  The grid has 64 points. Point t stages rows 8t … 8t + 7 of the state and of the three batch arrays (a block of 8 whole
  rows each) and the one block of each parameter row, and writes rows 8t … 8t + 7 of each result. A stored value at
  position (p, q) of the block depends on row p of the staged blocks only, that is on row 8t + p of the arrays, so what
  point t writes back is the block of rows 8t … 8t + 7 of the specification's array; row r of a result is covered by
  point r / 8, so the 64 blocks fill each result array.
-/
import proofs.«113156_j50337016709331_1_alg».proof.Proof.KernelRows
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Rows Idealize.ShloMosaic Idealize.ShloMosaic.TcCoe Idealize.SL.Sem
open Idealize.ShloMosaic.ValueIdx Cert.SyncSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at point t: the batch windows (state, numerator, denominator, weights and the three
    results) sit at block row t, block column 0; the two parameter windows stay at block (0, 0). Decided over the 64 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## The argument arrays and the staged blocks, at their literal shapes -/

/-- The state array as launched. -/
abbrev argState (c : Dev nD) : (⟨2, ![512, 256]⟩ : Shape).Idx → EReal := m ((c : Thread nD τ).loc main_arg0)
/-- The running numerator as launched. -/
abbrev argNumer (c : Dev nD) : (⟨2, ![512, 65536]⟩ : Shape).Idx → EReal := m ((c : Thread nD τ).loc main_arg1)
/-- The running denominator as launched. -/
abbrev argDenom (c : Dev nD) : (⟨2, ![512, 65536]⟩ : Shape).Idx → EReal := m ((c : Thread nD τ).loc main_arg2)
/-- The decay weights as launched. -/
abbrev argWeight (c : Dev nD) : (⟨2, ![512, 65536]⟩ : Shape).Idx → EReal := m ((c : Thread nD τ).loc main_arg3)
/-- The scale parameter as launched. -/
abbrev argScale (c : Dev nD) : (⟨1, ![65536]⟩ : Shape).Idx → EReal := m ((c : Thread nD τ).loc main_arg4)
/-- The shift parameter as launched. -/
abbrev argShift (c : Dev nD) : (⟨1, ![65536]⟩ : Shape).Idx → EReal := m ((c : Thread nD τ).loc main_arg5)

/-- The state block staged at point t. -/
abbrev stateBlk (c : Dev nD) (t : Fin cfg0.N) : Vec Ideal S8x256 .f32 := iblk m c 0 t
/-- The numerator block staged at point t. -/
abbrev numerBlk (c : Dev nD) (t : Fin cfg0.N) : Vec Ideal S8x65536 .f32 := iblk m c 1 t
/-- The denominator block staged at point t. -/
abbrev denomBlk (c : Dev nD) (t : Fin cfg0.N) : Vec Ideal S8x65536 .f32 := iblk m c 2 t
/-- The weight block staged at point t. -/
abbrev weightBlk (c : Dev nD) (t : Fin cfg0.N) : Vec Ideal S8x65536 .f32 := iblk m c 3 t
/-- The scale parameter's one block. -/
abbrev scaleBlk (c : Dev nD) (t : Fin cfg0.N) : Vec Ideal S1x65536 .f32 := iblk m c 4 t
/-- The shift parameter's one block. -/
abbrev shiftBlk (c : Dev nD) (t : Fin cfg0.N) : Vec Ideal S1x65536 .f32 := iblk m c 5 t

/-! ## Each staged block is rows of its array -/

/-- Row p of the state block at point t is row 8t + p of the state array. -/
theorem stateBlk_apply (c : Dev nD) (t : Fin cfg0.N) (p : Fin 8) (k : Fin 256) (r : Fin 512) (hr : r.val = 8 * t.val + p.val) :
    stateBlk m c t (ix2 p k) = argState m c (ix2 r k) := by
  show (V m c main_arg0 : Vec Ideal S512x256 .f32) (((cfg0.win 0).blk t).view.emb (ix2 p k)) = _
  rw [V_main_arg0]
  refine congrArg (argState m c) (funext fun a => Fin.ext ?_)
  obtain ⟨⟨h0, h1⟩, -⟩ := idx_facts t
  match a with
  | ⟨0, _⟩ => show win0_0.index t (0 : Fin 2) * 8 + 1 * p.val = r.val; omega
  | ⟨1, _⟩ => show win0_0.index t (1 : Fin 2) * 256 + 1 * k.val = k.val; omega

/-- Row p of the numerator block at point t is row 8t + p of the numerator array. -/
theorem numerBlk_apply (c : Dev nD) (t : Fin cfg0.N) (p : Fin 8) (k : Fin 65536) (r : Fin 512) (hr : r.val = 8 * t.val + p.val) :
    numerBlk m c t (ix2 p k) = argNumer m c (ix2 r k) := by
  show (V m c main_arg1 : Vec Ideal S512x65536 .f32) (((cfg0.win 1).blk t).view.emb (ix2 p k)) = _
  rw [V_main_arg1]
  refine congrArg (argNumer m c) (funext fun a => Fin.ext ?_)
  obtain ⟨-, ⟨h0, h1⟩, -⟩ := idx_facts t
  match a with
  | ⟨0, _⟩ => show win0_1.index t (0 : Fin 2) * 8 + 1 * p.val = r.val; omega
  | ⟨1, _⟩ => show win0_1.index t (1 : Fin 2) * 65536 + 1 * k.val = k.val; omega

/-- Row p of the denominator block at point t is row 8t + p of the denominator array. -/
theorem denomBlk_apply (c : Dev nD) (t : Fin cfg0.N) (p : Fin 8) (k : Fin 65536) (r : Fin 512) (hr : r.val = 8 * t.val + p.val) :
    denomBlk m c t (ix2 p k) = argDenom m c (ix2 r k) := by
  show (V m c main_arg2 : Vec Ideal S512x65536 .f32) (((cfg0.win 2).blk t).view.emb (ix2 p k)) = _
  rw [V_main_arg2]
  refine congrArg (argDenom m c) (funext fun a => Fin.ext ?_)
  obtain ⟨-, -, ⟨h0, h1⟩, -⟩ := idx_facts t
  match a with
  | ⟨0, _⟩ => show win0_2.index t (0 : Fin 2) * 8 + 1 * p.val = r.val; omega
  | ⟨1, _⟩ => show win0_2.index t (1 : Fin 2) * 65536 + 1 * k.val = k.val; omega

/-- Row p of the weight block at point t is row 8t + p of the weight array. -/
theorem weightBlk_apply (c : Dev nD) (t : Fin cfg0.N) (p : Fin 8) (k : Fin 65536) (r : Fin 512) (hr : r.val = 8 * t.val + p.val) :
    weightBlk m c t (ix2 p k) = argWeight m c (ix2 r k) := by
  show (V m c main_arg3 : Vec Ideal S512x65536 .f32) (((cfg0.win 3).blk t).view.emb (ix2 p k)) = _
  rw [V_main_arg3]
  refine congrArg (argWeight m c) (funext fun a => Fin.ext ?_)
  obtain ⟨-, -, -, ⟨h0, h1⟩, -⟩ := idx_facts t
  match a with
  | ⟨0, _⟩ => show win0_3.index t (0 : Fin 2) * 8 + 1 * p.val = r.val; omega
  | ⟨1, _⟩ => show win0_3.index t (1 : Fin 2) * 65536 + 1 * k.val = k.val; omega

/-- The scale parameter enters the region re-laid as one row of 65536 entries. -/
theorem scaleArr_eq (c : Dev nD) :
    (V m c main_v0 : Vec Ideal S1x65536 .f32) = shapeCast S1x65536 (argScale m c) shapeCasts_S65536_S1x65536 := by
  dsimp only [V, hostOps0]
  after_results
  rfl

/-- The shift parameter enters the region re-laid as one row of 65536 entries. -/
theorem shiftArr_eq (c : Dev nD) :
    (V m c main_v1 : Vec Ideal S1x65536 .f32) = shapeCast S1x65536 (argShift m c) shapeCasts_S65536_S1x65536 := by
  dsimp only [V, hostOps0]
  after_results
  rfl

/-- The scale parameter's one block, at every point, is the parameter. -/
theorem scaleBlk_apply (c : Dev nD) (t : Fin cfg0.N) (k : Fin 65536) :
    scaleBlk m c t (ix2 (0 : Fin 1) k) = argScale m c (ix1 k) := by
  show (V m c main_v0 : Vec Ideal S1x65536 .f32) (((cfg0.win 4).blk t).view.emb (ix2 (0 : Fin 1) k)) = _
  rw [scaleArr_eq]
  refine Eq.trans (congrArg _ (funext fun a => Fin.ext ?_)) (shapeCast_a_1a_apply (argScale m c) shapeCasts_S65536_S1x65536 0 k)
  obtain ⟨-, -, -, -, ⟨h0, h1⟩, -⟩ := idx_facts t
  match a with
  | ⟨0, _⟩ => show win0_4.index t (0 : Fin 2) * 1 + 1 * 0 = 0; omega
  | ⟨1, _⟩ => show win0_4.index t (1 : Fin 2) * 65536 + 1 * k.val = k.val; omega

/-- The shift parameter's one block, at every point, is the parameter. -/
theorem shiftBlk_apply (c : Dev nD) (t : Fin cfg0.N) (k : Fin 65536) :
    shiftBlk m c t (ix2 (0 : Fin 1) k) = argShift m c (ix1 k) := by
  show (V m c main_v1 : Vec Ideal S1x65536 .f32) (((cfg0.win 5).blk t).view.emb (ix2 (0 : Fin 1) k)) = _
  rw [shiftArr_eq]
  refine Eq.trans (congrArg _ (funext fun a => Fin.ext ?_)) (shapeCast_a_1a_apply (argShift m c) shapeCasts_S65536_S1x65536 0 k)
  obtain ⟨-, -, -, -, -, ⟨h0, h1⟩, -⟩ := idx_facts t
  match a with
  | ⟨0, _⟩ => show win0_5.index t (0 : Fin 2) * 1 + 1 * 0 = 0; omega
  | ⟨1, _⟩ => show win0_5.index t (1 : Fin 2) * 65536 + 1 * k.val = k.val; omega

/-! ## What a point stores, as the specification's arrays at the rows it covers -/

/-- The specification's updated numerator, of the launched arrays. -/
abbrev specNumer (c : Dev nD) : (⟨2, ![512, 65536]⟩ : Shape).Idx → EReal :=
  alphaOut (argState m c) (argNumer m c) (argWeight m c)
/-- The specification's updated denominator, of the launched arrays. -/
abbrev specDenom (c : Dev nD) : (⟨2, ![512, 65536]⟩ : Shape).Idx → EReal :=
  betaOut (argDenom m c) (argWeight m c)
/-- The specification's normalised array, of the launched arrays. -/
abbrev specSync (c : Dev nD) : (⟨2, ![512, 65536]⟩ : Shape).Idx → EReal :=
  syncOut (argState m c) (argNumer m c) (argDenom m c) (argWeight m c) (argScale m c) (argShift m c)

theorem stateRow (c : Dev nD) (t : Fin cfg0.N) (p : Fin 8) (r : Fin 512) (hr : r.val = 8 * t.val + p.val) :
    row (stateBlk m c t) p = row (argState m c) r := funext fun k => stateBlk_apply m c t p k r hr
theorem numerRow (c : Dev nD) (t : Fin cfg0.N) (p : Fin 8) (r : Fin 512) (hr : r.val = 8 * t.val + p.val) :
    row (numerBlk m c t) p = row (argNumer m c) r := funext fun k => numerBlk_apply m c t p k r hr
theorem denomRow (c : Dev nD) (t : Fin cfg0.N) (p : Fin 8) (r : Fin 512) (hr : r.val = 8 * t.val + p.val) :
    row (denomBlk m c t) p = row (argDenom m c) r := funext fun k => denomBlk_apply m c t p k r hr
theorem weightRow (c : Dev nD) (t : Fin cfg0.N) (p : Fin 8) (r : Fin 512) (hr : r.val = 8 * t.val + p.val) :
    row (weightBlk m c t) p = row (argWeight m c) r := funext fun k => weightBlk_apply m c t p k r hr

/-- Position (p, q) of the numerator stored at point t is the specification at row 8t + p. -/
theorem numer_point (c : Dev nD) (t : Fin cfg0.N) (p : Fin 8) (q : Fin 65536) (r : Fin 512) (hr : r.val = 8 * t.val + p.val) :
    k0_pay3 (stateBlk m c t) (weightBlk m c t) (numerBlk m c t) (ix2 p q) = specNumer m c (ix2 r q) := by
  refine (pay3_apply _ _ _ p q).trans ?_
  rw [stateRow m c t p r hr, numerRow m c t p r hr, weightRow m c t p r hr]
  rfl

/-- Position (p, q) of the denominator stored at point t is the specification at row 8t + p. -/
theorem denom_point (c : Dev nD) (t : Fin cfg0.N) (p : Fin 8) (q : Fin 65536) (r : Fin 512) (hr : r.val = 8 * t.val + p.val) :
    k0_pay4 (weightBlk m c t) (denomBlk m c t) (ix2 p q) = specDenom m c (ix2 r q) := by
  refine (pay4_apply _ _ p q).trans ?_
  rw [denomRow m c t p r hr, weightRow m c t p r hr]
  rfl

/-- Position (p, q) of the normalised block stored at point t is the specification at row 8t + p. -/
theorem sync_point (c : Dev nD) (t : Fin cfg0.N) (p : Fin 8) (q : Fin 65536) (r : Fin 512) (hr : r.val = 8 * t.val + p.val) :
    k0_pay1 (k0_pay5 (stateBlk m c t) (weightBlk m c t) (numerBlk m c t) (denomBlk m c t) (scaleBlk m c t)) (k0_pay6 (shiftBlk m c t)) (ix2 p q)
      = specSync m c (ix2 r q) := by
  refine (pay1_apply _ _ _ _ _ _ p q).trans ?_
  rw [stateRow m c t p r hr, numerRow m c t p r hr, denomRow m c t p r hr, weightRow m c t p r hr,
    show (fun k => scaleBlk m c t (ix2 (0 : Fin 1) k)) = line (argScale m c) from funext fun k => scaleBlk_apply m c t k,
    show (fun k => shiftBlk m c t (ix2 (0 : Fin 1) k)) = line (argShift m c) from funext fun k => shiftBlk_apply m c t k]
  rfl

/-! ## What each point writes back -/

/-- Point t writes rows 8t … 8t + 7 of the specification's normalised array. -/
theorem flushed6_eq (c : Dev nD) (t : Fin cfg0.N) :
    (dats m 0 c).flushed 6 t = ((cfg0.win 6).blk t).view.read (Elt Ideal) (specSync m c) := by
  rw [Cert.KernelIdeal.Value.flushed6]
  unfold out0_6
  rw [View.canon_unit_zero hz]
  simp only [View.ld_unit_zero (S := S8x256) hz, View.ld_unit_zero (S := S8x65536) hz, View.ld_unit_zero (S := S1x65536) hz]
  funext j
  obtain ⟨-, -, -, -, -, -, ⟨h0, h1⟩, -⟩ := idx_facts t
  have hN : cfg0.N = 64 := N_0
  have ht : t.val < 64 := hN ▸ t.isLt
  obtain ⟨p, q, rfl⟩ : ∃ (p : Fin 8) (q : Fin 65536), j = ix2 p q :=
    ⟨⟨(j 0).val, (j 0).isLt⟩, ⟨(j 1).val, (j 1).isLt⟩, funext fun a => by match a with | ⟨0, _⟩ => rfl | ⟨1, _⟩ => rfl⟩
  have hp : p.val < 8 := p.isLt
  show k0_pay1 (k0_pay5 (stateBlk m c t) (weightBlk m c t) (numerBlk m c t) (denomBlk m c t) (scaleBlk m c t)) (k0_pay6 (shiftBlk m c t)) (ix2 p q)
      = specSync m c (((cfg0.win 6).blk t).view.emb (ix2 p q))
  have e : ((cfg0.win 6).blk t).view.emb (ix2 p q) = (ix2 (⟨8 * t.val + p.val, by omega⟩ : Fin 512) q : S512x65536.Idx) :=
    funext fun a => Fin.ext (by
      match a with
      | ⟨0, _⟩ => show win0_6.index t (0 : Fin 2) * 8 + 1 * p.val = 8 * t.val + p.val; omega
      | ⟨1, _⟩ => show win0_6.index t (1 : Fin 2) * 65536 + 1 * q.val = q.val; omega)
  rw [e]
  exact sync_point m c t p q _ rfl

/-- Point t writes rows 8t … 8t + 7 of the specification's updated numerator. -/
theorem flushed7_eq (c : Dev nD) (t : Fin cfg0.N) :
    (dats m 0 c).flushed 7 t = ((cfg0.win 7).blk t).view.read (Elt Ideal) (specNumer m c) := by
  rw [Cert.KernelIdeal.Value.flushed7]
  unfold out0_7
  rw [View.canon_unit_zero hz]
  simp only [View.ld_unit_zero (S := S8x256) hz, View.ld_unit_zero (S := S8x65536) hz]
  funext j
  obtain ⟨-, -, -, -, -, -, -, ⟨h0, h1⟩, -⟩ := idx_facts t
  have hN : cfg0.N = 64 := N_0
  have ht : t.val < 64 := hN ▸ t.isLt
  obtain ⟨p, q, rfl⟩ : ∃ (p : Fin 8) (q : Fin 65536), j = ix2 p q :=
    ⟨⟨(j 0).val, (j 0).isLt⟩, ⟨(j 1).val, (j 1).isLt⟩, funext fun a => by match a with | ⟨0, _⟩ => rfl | ⟨1, _⟩ => rfl⟩
  have hp : p.val < 8 := p.isLt
  show k0_pay3 (stateBlk m c t) (weightBlk m c t) (numerBlk m c t) (ix2 p q) = specNumer m c (((cfg0.win 7).blk t).view.emb (ix2 p q))
  have e : ((cfg0.win 7).blk t).view.emb (ix2 p q) = (ix2 (⟨8 * t.val + p.val, by omega⟩ : Fin 512) q : S512x65536.Idx) :=
    funext fun a => Fin.ext (by
      match a with
      | ⟨0, _⟩ => show win0_7.index t (0 : Fin 2) * 8 + 1 * p.val = 8 * t.val + p.val; omega
      | ⟨1, _⟩ => show win0_7.index t (1 : Fin 2) * 65536 + 1 * q.val = q.val; omega)
  rw [e]
  exact numer_point m c t p q _ rfl

/-- Point t writes rows 8t … 8t + 7 of the specification's updated denominator. -/
theorem flushed8_eq (c : Dev nD) (t : Fin cfg0.N) :
    (dats m 0 c).flushed 8 t = ((cfg0.win 8).blk t).view.read (Elt Ideal) (specDenom m c) := by
  rw [Cert.KernelIdeal.Value.flushed8]
  unfold out0_8
  rw [View.canon_unit_zero hz]
  simp only [View.ld_unit_zero (S := S8x65536) hz]
  funext j
  obtain ⟨-, -, -, -, -, -, -, -, ⟨h0, h1⟩⟩ := idx_facts t
  have hN : cfg0.N = 64 := N_0
  have ht : t.val < 64 := hN ▸ t.isLt
  obtain ⟨p, q, rfl⟩ : ∃ (p : Fin 8) (q : Fin 65536), j = ix2 p q :=
    ⟨⟨(j 0).val, (j 0).isLt⟩, ⟨(j 1).val, (j 1).isLt⟩, funext fun a => by match a with | ⟨0, _⟩ => rfl | ⟨1, _⟩ => rfl⟩
  have hp : p.val < 8 := p.isLt
  show k0_pay4 (weightBlk m c t) (denomBlk m c t) (ix2 p q) = specDenom m c (((cfg0.win 8).blk t).view.emb (ix2 p q))
  have e : ((cfg0.win 8).blk t).view.emb (ix2 p q) = (ix2 (⟨8 * t.val + p.val, by omega⟩ : Fin 512) q : S512x65536.Idx) :=
    funext fun a => Fin.ext (by
      match a with
      | ⟨0, _⟩ => show win0_8.index t (0 : Fin 2) * 8 + 1 * p.val = 8 * t.val + p.val; omega
      | ⟨1, _⟩ => show win0_8.index t (1 : Fin 2) * 65536 + 1 * q.val = q.val; omega)
  rw [e]
  exact denom_point m c t p q _ rfl

/-! ## The 64 blocks fill each result array -/

/-- Membership in point t's block of result window 6, coordinate by coordinate. -/
theorem mem_blk6 (t : Fin cfg0.N) (i : S512x65536.Idx) :
    i ∈ ((cfg0.win 6).blk t).view.set ↔ ∀ a : Fin 2, win0_6.index t a * S8x65536.size a ≤ (i a).val ∧ (i a).val < win0_6.index t a * S8x65536.size a + S8x65536.size a := by
  show i ∈ ((View.whole main_v2_0).slice (win0_6.rect t)).set ↔ _
  rw [View.set_slice_whole, Rect.mem_set_unit]
  exact Iff.rfl

/-- Row r of result window 6's array lies in the block of point r / 8. -/
theorem cover6 (i : S512x65536.Idx) : ∃ t : Fin cfg0.N, (cfg0.win 6).flush t = true ∧ i ∈ ((cfg0.win 6).blk t).view.set := by
  have hi0 : (i 0).val < 512 := (i 0).isLt
  have hi1 : (i 1).val < 65536 := (i 1).isLt
  have hN : cfg0.N = 64 := N_0
  have hlt : (i 0).val / 8 < cfg0.N := by rw [hN]; omega
  obtain ⟨t, htv⟩ : ∃ t : Fin cfg0.N, t.val = (i 0).val / 8 := ⟨⟨_, hlt⟩, rfl⟩
  refine ⟨t, flush0_6 t, ?_⟩
  rw [mem_blk6]
  obtain ⟨-, -, -, -, -, -, ⟨h0, h1⟩, -⟩ := idx_facts t
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 65536 ≤ (i 1).val ∧ (i 1).val < win0_6.index t (1 : Fin 2) * 65536 + 65536; omega

/-- Membership in point t's block of result window 7, coordinate by coordinate. -/
theorem mem_blk7 (t : Fin cfg0.N) (i : S512x65536.Idx) :
    i ∈ ((cfg0.win 7).blk t).view.set ↔ ∀ a : Fin 2, win0_7.index t a * S8x65536.size a ≤ (i a).val ∧ (i a).val < win0_7.index t a * S8x65536.size a + S8x65536.size a := by
  show i ∈ ((View.whole main_v2_1).slice (win0_7.rect t)).set ↔ _
  rw [View.set_slice_whole, Rect.mem_set_unit]
  exact Iff.rfl

/-- Row r of result window 7's array lies in the block of point r / 8. -/
theorem cover7 (i : S512x65536.Idx) : ∃ t : Fin cfg0.N, (cfg0.win 7).flush t = true ∧ i ∈ ((cfg0.win 7).blk t).view.set := by
  have hi0 : (i 0).val < 512 := (i 0).isLt
  have hi1 : (i 1).val < 65536 := (i 1).isLt
  have hN : cfg0.N = 64 := N_0
  have hlt : (i 0).val / 8 < cfg0.N := by rw [hN]; omega
  obtain ⟨t, htv⟩ : ∃ t : Fin cfg0.N, t.val = (i 0).val / 8 := ⟨⟨_, hlt⟩, rfl⟩
  refine ⟨t, flush0_7 t, ?_⟩
  rw [mem_blk7]
  obtain ⟨-, -, -, -, -, -, -, ⟨h0, h1⟩, -⟩ := idx_facts t
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 65536 ≤ (i 1).val ∧ (i 1).val < win0_7.index t (1 : Fin 2) * 65536 + 65536; omega

/-- Membership in point t's block of result window 8, coordinate by coordinate. -/
theorem mem_blk8 (t : Fin cfg0.N) (i : S512x65536.Idx) :
    i ∈ ((cfg0.win 8).blk t).view.set ↔ ∀ a : Fin 2, win0_8.index t a * S8x65536.size a ≤ (i a).val ∧ (i a).val < win0_8.index t a * S8x65536.size a + S8x65536.size a := by
  show i ∈ ((View.whole main_v2_2).slice (win0_8.rect t)).set ↔ _
  rw [View.set_slice_whole, Rect.mem_set_unit]
  exact Iff.rfl

/-- Row r of result window 8's array lies in the block of point r / 8. -/
theorem cover8 (i : S512x65536.Idx) : ∃ t : Fin cfg0.N, (cfg0.win 8).flush t = true ∧ i ∈ ((cfg0.win 8).blk t).view.set := by
  have hi0 : (i 0).val < 512 := (i 0).isLt
  have hi1 : (i 1).val < 65536 := (i 1).isLt
  have hN : cfg0.N = 64 := N_0
  have hlt : (i 0).val / 8 < cfg0.N := by rw [hN]; omega
  obtain ⟨t, htv⟩ : ∃ t : Fin cfg0.N, t.val = (i 0).val / 8 := ⟨⟨_, hlt⟩, rfl⟩
  refine ⟨t, flush0_8 t, ?_⟩
  rw [mem_blk8]
  obtain ⟨-, -, -, -, -, -, -, -, ⟨h0, h1⟩⟩ := idx_facts t
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 65536 ≤ (i 1).val ∧ (i 1).val < win0_8.index t (1 : Fin 2) * 65536 + 65536; omega

/-- After the run the first result array is the specification's normalised array. -/
theorem final6 (c : Dev nD) : (dats m 0 c).arrAt 6 cfg0.N = specSync m c :=
  (dats m 0 c).arrAt_eq_of_cover 6 (specSync m c) (fun t _ => flushed6_eq m c t) cover6

/-- After the run the second result array is the specification's updated numerator. -/
theorem final7 (c : Dev nD) : (dats m 0 c).arrAt 7 cfg0.N = specNumer m c :=
  (dats m 0 c).arrAt_eq_of_cover 7 (specNumer m c) (fun t _ => flushed7_eq m c t) cover7

/-- After the run the third result array is the specification's updated denominator. -/
theorem final8 (c : Dev nD) : (dats m 0 c).arrAt 8 cfg0.N = specDenom m c :=
  (dats m 0 c).arrAt_eq_of_cover 8 (specDenom m c) (fun t _ => flushed8_eq m c t) cover8

/-- The kernel's run: every weakly fair execution ends with the three result arrays at the specification of the launched
    arrays, and the arguments unchanged. -/
theorem run : θ_run defs (onTc (τ := τ) (main (F := Ideal))) ⟨m, fun _ => 0, ρ⟩ fun r => ∀ c : Dev nD,
      r.2.mem ((c : Thread nD τ).loc main_v2_0) = specSync m c
      ∧ r.2.mem ((c : Thread nD τ).loc main_v2_1) = specNumer m c
      ∧ r.2.mem ((c : Thread nD τ).loc main_v2_2) = specDenom m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c),
      (h c).2.2.1.trans (final8 m c), (h c).2.2.2⟩)
    (Cert.KernelIdeal.Value.run_blocks m ρ)

end Cert.KernelIdeal.Whole

end
-- ==== Proof.RefValue.lean ====
/-
  The reference's three results, read stage by stage at a position (r, q): each is the specification's row function of
  row r of the arguments.

  The reference works on the whole 512-row arrays. Its outer product is two unit-axis broadcasts, a product and a row-major
  flattening: position (r, q) of the flattened array is position (r, q / 256, q % 256) of the cube. Its two sums along the
  row start from the literal zero, which denotes 0, and are kept as 512 × 1 columns that are broadcast back along the row.
  The two parameter rows are broadcast over the 512 batch rows.
-/
import proofs.«113156_j50337016709331_1_alg».proof.Proof.Gen.ReferenceIdeal.Read
import proofs.«113156_j50337016709331_1_alg».proof.Proof.SyncSpec
import Idealize.ShloMosaic.Lib.IdealHost

noncomputable section

namespace Cert.ReferenceIdeal.Whole

open Cert.ReferenceIdeal Cert.ReferenceIdeal.Gen Cert.ReferenceIdeal.Read Idealize.ShloMosaic Idealize.ShloMosaic.ValueIdx Cert.SyncSpec

variable (x0 : (⟨S512x256, .f32⟩ : BufTy).Contents (Elt Ideal)) (x1 x2 x3 : (⟨S512x65536, .f32⟩ : BufTy).Contents (Elt Ideal))
  (x4 x5 : (⟨S65536, .f32⟩ : BufTy).Contents (Elt Ideal))

/-- The flattened outer product at (r, q): the state row's entries q / 256 and q % 256 multiplied. -/
theorem outer_apply (r : Fin 512) (q : Fin 65536) : val_main_v5 (F := Ideal) x0 (ix2 r q) = outer (row x0 r) q := by
  have hr : r.val < 512 := r.isLt
  have hq : q.val < 65536 := q.isLt
  rw [val_main_v5_apply, val_main_v4_apply, val_main_v2_apply, val_main_v3_apply, val_main_v0_apply, val_main_v1_apply]
  have e1 : idx_main_v0 (idx_main_v2 (idx_main_v5 (ix2 r q))) = ix2 r (hi q) := funext fun a => Fin.ext (by
    match a with
    | ⟨0, _⟩ => show (r.val * 65536 + q.val) / 65536 = r.val; omega
    | ⟨1, _⟩ => show (r.val * 65536 + q.val) / 256 % 256 = q.val / 256; omega)
  have e2 : idx_main_v1 (idx_main_v3 (idx_main_v5 (ix2 r q))) = ix2 r (lo q) := funext fun a => Fin.ext (by
    match a with
    | ⟨0, _⟩ => show (r.val * 65536 + q.val) / 65536 = r.val; omega
    | ⟨1, _⟩ => show (r.val * 65536 + q.val) % 256 = q.val % 256; omega)
  rw [e1, e2]
  rfl

/-- The updated numerator at (r, q). -/
theorem numer_apply (r : Fin 512) (q : Fin 65536) :
    val_main_v8 (F := Ideal) x0 x1 x3 (ix2 r q) = alphaRow (row x0 r) (row x1 r) (row x3 r) q := by
  rw [val_main_v8_apply, val_main_v7_apply, val_main_v6_apply, outer_apply]
  rfl

/-- The updated denominator at (r, q). -/
theorem denom_apply (r : Fin 512) (q : Fin 65536) :
    val_main_v11 (F := Ideal) x2 x3 (ix2 r q) = betaRow (row x2 r) (row x3 r) q := by
  rw [val_main_v11_apply, val_main_v9_apply, val_main_v6_apply, val_main_v10_apply, val_main_cst_apply]
  rfl

/-- The row that is normalised, at (r, q). -/
theorem pre_apply (r : Fin 512) (q : Fin 65536) :
    val_main_v13 (F := Ideal) x0 x1 x2 x3 (ix2 r q) = preRow (row x0 r) (row x1 r) (row x2 r) (row x3 r) q := by
  rw [val_main_v13_apply, numer_apply, val_main_v12_apply, denom_apply]
  rfl

/-- The mean column at row r. -/
theorem mean_apply (r : Fin 512) (u : Fin 1) :
    val_main_v17 (F := Ideal) x0 x1 x2 x3 (ix2 r u) = mean (preRow (row x0 r) (row x1 r) (row x2 r) (row x3 r)) := by
  rw [val_main_v17_apply, val_main_v15_apply, val_main_v14_apply, val_main_v16_apply, val_main_cst_1_apply, val_main_cst_0_apply]
  show Ideal.div (Ideal.ofBits .f32 0x00000000#32 + ∑ k : Fin 65536, val_main_v13 (F := Ideal) x0 x1 x2 x3 (idx_main_v14 (idx_main_v15 (ix2 r u)) k)) len = _
  rw [Ideal.ofBits_zero_f32, zero_add]
  refine congrArg (Ideal.div · len) (Finset.sum_congr rfl fun k _ => ?_)
  have e : idx_main_v14 (idx_main_v15 (ix2 r u)) k = ix2 r k := funext fun a => Fin.ext (by
    match a with
    | ⟨0, _⟩ => rfl
    | ⟨1, _⟩ => rfl)
  rw [e, pre_apply]

/-- The centred array at (r, q), as the reference computes it for the variance. -/
theorem centred_apply (r : Fin 512) (q : Fin 65536) :
    val_main_v19 (F := Ideal) x0 x1 x2 x3 (ix2 r q) = centred (preRow (row x0 r) (row x1 r) (row x2 r) (row x3 r)) q := by
  rw [val_main_v19_apply, pre_apply, val_main_v18_apply]
  have e : idx_main_v18 (ix2 r q) = ix2 r (0 : Fin 1) := funext fun a => Fin.ext (by
    match a with
    | ⟨0, _⟩ => rfl
    | ⟨1, _⟩ => rfl)
  rw [e, mean_apply]
  rfl

/-- The centred array at (r, q), as the reference computes it a second time for the result. -/
theorem centred_apply' (r : Fin 512) (q : Fin 65536) :
    val_main_v26 (F := Ideal) x0 x1 x2 x3 (ix2 r q) = centred (preRow (row x0 r) (row x1 r) (row x2 r) (row x3 r)) q := by
  rw [val_main_v26_apply, pre_apply, val_main_v25_apply]
  have e : idx_main_v25 (ix2 r q) = ix2 r (0 : Fin 1) := funext fun a => Fin.ext (by
    match a with
    | ⟨0, _⟩ => rfl
    | ⟨1, _⟩ => rfl)
  rw [e, mean_apply]
  rfl

/-- The variance column at row r. -/
theorem variance_apply (r : Fin 512) (u : Fin 1) :
    val_main_v24 (F := Ideal) x0 x1 x2 x3 (ix2 r u) = variance (preRow (row x0 r) (row x1 r) (row x2 r) (row x3 r)) := by
  rw [val_main_v24_apply, val_main_v22_apply, val_main_v21_apply, val_main_v23_apply, val_main_cst_3_apply, val_main_cst_2_apply]
  show Ideal.div (Ideal.ofBits .f32 0x00000000#32 + ∑ k : Fin 65536, val_main_v20 (F := Ideal) x0 x1 x2 x3 (idx_main_v21 (idx_main_v22 (ix2 r u)) k)) len = _
  rw [Ideal.ofBits_zero_f32, zero_add]
  refine congrArg (Ideal.div · len) (Finset.sum_congr rfl fun k _ => ?_)
  have e : idx_main_v21 (idx_main_v22 (ix2 r u)) k = ix2 r k := funext fun a => Fin.ext (by
    match a with
    | ⟨0, _⟩ => rfl
    | ⟨1, _⟩ => rfl)
  rw [e, val_main_v20_apply, centred_apply]
  rfl

/-- The normalised array at (r, q). -/
theorem sync_apply (r : Fin 512) (q : Fin 65536) :
    val_main_v37 (F := Ideal) x0 x1 x2 x3 x4 x5 (ix2 r q)
      = normRow (preRow (row x0 r) (row x1 r) (row x2 r) (row x3 r)) (line x4) (line x5) q := by
  rw [val_main_v37_apply, val_main_v34_apply, val_main_v31_apply, centred_apply', val_main_v30_apply, val_main_v29_apply,
    val_main_v28_apply, val_main_v27_apply, val_main_cst_4_apply, val_main_v33_apply, val_main_v32_apply,
    val_main_v36_apply, val_main_v35_apply]
  have e : idx_main_v30 (ix2 r q) = ix2 r (0 : Fin 1) := funext fun a => Fin.ext (by
    match a with
    | ⟨0, _⟩ => rfl
    | ⟨1, _⟩ => rfl)
  have e4 : idx_main_v32 (idx_main_v33 (ix2 r q)) = ix1 q := funext fun a => Fin.ext (by
    match a with
    | ⟨0, _⟩ => rfl)
  have e5 : idx_main_v35 (idx_main_v36 (ix2 r q)) = ix1 q := funext fun a => Fin.ext (by
    match a with
    | ⟨0, _⟩ => rfl)
  rw [e, variance_apply, e4, e5]
  rfl

/-! ## The three results as whole arrays -/

/-- The reference's first result is the specification's normalised array. -/
theorem sync_eq : val_main_v37 (F := Ideal) x0 x1 x2 x3 x4 x5 = syncOut x0 x1 x2 x3 x4 x5 :=
  funext fun i => by rw [eq_ix2 i]; exact sync_apply x0 x1 x2 x3 x4 x5 (i 0) (i 1)

/-- The reference's second result is the specification's updated numerator. -/
theorem numer_eq : val_main_v8 (F := Ideal) x0 x1 x3 = alphaOut x0 x1 x3 :=
  funext fun i => by rw [eq_ix2 i]; exact numer_apply x0 x1 x3 (i 0) (i 1)

/-- The reference's third result is the specification's updated denominator. -/
theorem denom_eq : val_main_v11 (F := Ideal) x2 x3 = betaOut x2 x3 :=
  funext fun i => by rw [eq_ix2 i]; exact denom_apply x2 x3 (i 0) (i 1)

end Cert.ReferenceIdeal.Whole

end
-- ==== Proof.lean ====
/-
  The kernel against its reference, on the extended reals.

  Each of the 512 batch rows is updated independently. With `s` the row's state vector (256 entries), `a`, `b`, `w` its
  running numerator, running denominator and decay weights (65536 entries, the 256 × 256 square flattened row-major),

      alpha q = w q · w q · a q + s (q / 256) · s (q % 256),      beta q = w q · w q · b q + 1,

  and the first result is `alpha · rsqrt beta` normalised along the row to zero mean and unit variance (the variance offset
  by the literal ε), scaled and shifted by the two parameter rows. The kernel computes this for 8 rows at a grid point, 64
  points covering the 512 rows; the reference computes it for all rows at once. Both apply the same operations, in the same
  order, with the same literal words; a row's mean is its sum divided by the literal 65536 on both sides, and a sum along
  a row is the same finite sum whatever its schedule. So both programs' results are ONE function of the arguments
  (Proof/SyncSpec.lean), and no law of arithmetic beyond that is used: the precondition is never opened.

  The kernel's side: each stored value at a position of the block is the row function of that block row
  (Proof/KernelRows.lean); a block row is an array row, so a point writes its 8 rows of the specification's array, and the
  64 blocks fill each result (Proof/KernelValue.lean). The reference's side: its operations read one at a time at a
  position (Proof/RefValue.lean). The three frames are the generated ones (the reference's frame is its run with the
  results dropped); the idealisation rewrote nothing, so `preserves` has nothing to state.
-/
import proofs.«113156_j50337016709331_1_alg».proof.Defs
import proofs.«113156_j50337016709331_1_alg».proof.Proof.Gen.Kernel
import proofs.«113156_j50337016709331_1_alg».proof.Proof.Gen.Kernel.Skeleton
import proofs.«113156_j50337016709331_1_alg».proof.Proof.Gen.Kernel.Launch
import proofs.«113156_j50337016709331_1_alg».proof.Proof.Gen.Kernel.Points
import proofs.«113156_j50337016709331_1_alg».proof.Proof.Gen.Kernel.Frame
import proofs.«113156_j50337016709331_1_alg».proof.Proof.Gen.KernelIdeal
import proofs.«113156_j50337016709331_1_alg».proof.Proof.Gen.KernelIdeal.Skeleton
import proofs.«113156_j50337016709331_1_alg».proof.Proof.Gen.KernelIdeal.Launch
import proofs.«113156_j50337016709331_1_alg».proof.Proof.Gen.KernelIdeal.Points
import proofs.«113156_j50337016709331_1_alg».proof.Proof.Gen.KernelIdeal.Frame
import proofs.«113156_j50337016709331_1_alg».proof.Proof.Gen.ReferenceIdeal
import proofs.«113156_j50337016709331_1_alg».proof.Proof.Gen.Pre_finite_inputs
import proofs.«113156_j50337016709331_1_alg».proof.Proof.Gen.KernelIdeal.Value
import proofs.«113156_j50337016709331_1_alg».proof.Proof.Gen.ReferenceIdeal.Run
import proofs.«113156_j50337016709331_1_alg».proof.Proof.Gen.ReferenceIdeal.Read
import proofs.«113156_j50337016709331_1_alg».proof.Proof.KernelValue
import proofs.«113156_j50337016709331_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealised kernel runs and leaves its arguments unchanged. -/
theorem frame_kernelIdeal : Cert.frame_KernelIdeal := fun m ρ _ => Cert.KernelIdeal.Gen.frame m ρ

/-- The idealised reference runs and leaves its arguments unchanged: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealisation rewrote no operation. -/
theorem preserves : Cert.preserves_Kernel_KernelIdeal := trivial

/-- From memories that agree on the arguments both programs end with the three results at the specification's arrays of
    those arguments: the normalised array, the updated numerator and the updated denominator, paired in that order. -/
theorem algebraic : Cert.algebraic_KernelIdeal_ReferenceIdeal := by
  intro m ρ m' ρ' _ hagree
  refine ⟨fun c => Cert.KernelIdeal.Whole.specSync m c, fun c => Cert.KernelIdeal.Whole.specNumer m c,
    fun c => Cert.KernelIdeal.Whole.specDenom m c, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2⟩
  · refine (Cert.ReferenceIdeal.Read.val_main_v37_eq m' c).trans ?_
    rw [Cert.ReferenceIdeal.Whole.sync_eq, a0, a1, a2, a3, a4, a5]
  · refine (Cert.ReferenceIdeal.Read.val_main_v8_eq _ _ _).trans ?_
    rw [Cert.ReferenceIdeal.Whole.numer_eq, a0, a1, a3]
  · refine (Cert.ReferenceIdeal.Read.val_main_v11_eq _ _).trans ?_
    rw [Cert.ReferenceIdeal.Whole.denom_eq, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
